-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S4000x1 : Shape := ⟨2, ![4000, 1]⟩
abbrev S1600000x128 : Shape := ⟨2, ![1600000, 128]⟩
abbrev S1x128 : Shape := ⟨2, ![1, 128]⟩
abbrev S100000x64 : Shape := ⟨2, ![100000, 64]⟩
abbrev S4000x64 : Shape := ⟨2, ![4000, 64]⟩
abbrev S1600000x64 : Shape := ⟨2, ![1600000, 64]⟩
abbrev S1x64 : Shape := ⟨2, ![1, 64]⟩

abbrev nBuf : Space → Nat
  | .hbm => 73
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x1, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S1x64, .f32⟩
  | .hbm, ⟨72, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S128x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x1, .f32⟩
  | .local _ .vmem, ⟨17, _⟩ => ⟨S4000x1, .f32⟩
  | .local _ .vmem, ⟨18, _⟩ => ⟨S128x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x1, .f32⟩
  | .local _ .vmem, ⟨24, _⟩ => ⟨S4000x1, .f32⟩
  | .local _ .vmem, ⟨25, _⟩ => ⟨S1x64, .f32⟩
  | .local _ .vmem, ⟨26, _⟩ => ⟨S4000x64, .f32⟩
  | .local _ .vmem, ⟨27, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c : Ref sig .tc := ⟨.hbm, 42, rfl⟩
abbrev main_v22 : Ref sig .tc := ⟨.hbm, 43, rfl⟩
abbrev main_v23 : Ref sig .tc := ⟨.hbm, 44, rfl⟩
abbrev main_c_8 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_10 : Ref sig .tc := ⟨.hbm, 58, rfl⟩
abbrev main_v35 : Ref sig .tc := ⟨.hbm, 59, rfl⟩
abbrev main_v36 : Ref sig .tc := ⟨.hbm, 60, rfl⟩
abbrev main_c_11 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_12 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x64.size a ≤ S100000x64.size a
  hwx3_3 : ∀ i : grid3.Coords, EltTy.bits .f32 = 32 ∨ (Rect.block (s := S100000x64) S4000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S4000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v44) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S4000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S1600000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000, .f32⟩
  | .hbm, ⟨82, _⟩ => ⟨S_, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .f32⟩
  | .hbm, ⟨87, _⟩ => ⟨S100000, .f32⟩
  | .hbm, ⟨88, _⟩ => ⟨S100000, .i1⟩
  | .hbm, ⟨89, _⟩ => ⟨S_, .f32⟩
  | .hbm, ⟨90, _⟩ => ⟨S100000, .f32⟩
  | .hbm, ⟨91, _⟩ => ⟨S100000, .f32⟩
  | .hbm, ⟨92, _⟩ => ⟨S100000, .f32⟩
  | .hbm, ⟨93, _⟩ => ⟨S_, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x128, .f32⟩
  | .hbm, ⟨99, _⟩ => ⟨S100000x128, .f32⟩
  | .hbm, ⟨100, _⟩ => ⟨S100000x64, .f32⟩
  | .hbm, ⟨101, _⟩ => ⟨S_, .i32⟩
  | .hbm, ⟨102, _⟩ => ⟨S1600000, .i32⟩
  | .hbm, ⟨103, _⟩ => ⟨S1600000, .i1⟩
  | .hbm, ⟨104, _⟩ => ⟨S_, .i32⟩
  | .hbm, ⟨105, _⟩ => ⟨S1600000, .i32⟩
  | .hbm, ⟨106, _⟩ => ⟨S1600000, .i32⟩
  | .hbm, ⟨107, _⟩ => ⟨S1600000, .i32⟩
  | .hbm, ⟨108, _⟩ => ⟨S1600000x1, .i32⟩
  | .hbm, ⟨109, _⟩ => ⟨S1600000x64, .f32⟩
  | .hbm, ⟨110, _⟩ => ⟨S_, .f32⟩
  | .hbm, ⟨111, _⟩ => ⟨S100000x64, .f32⟩
  | .hbm, ⟨112, _⟩ => ⟨S1600000x1, .i32⟩
  | .hbm, ⟨113, _⟩ => ⟨S100000x64, .f32⟩
  | .hbm, ⟨114, _⟩ => ⟨S100000x1, .f32⟩
  | .hbm, ⟨115, _⟩ => ⟨S100000x64, .f32⟩
  | .hbm, ⟨116, _⟩ => ⟨S100000x64, .f32⟩
  | .hbm, ⟨117, _⟩ => ⟨S1x64, .f32⟩
  | .hbm, ⟨118, _⟩ => ⟨S100000x64, .f32⟩
  | .hbm, ⟨119, _⟩ => ⟨S100000x64, .f32⟩
  | .hbm, ⟨120, _⟩ => ⟨S_, .f32⟩
  | .hbm, ⟨121, _⟩ => ⟨S100000x64, .f32⟩
  | .hbm, ⟨122, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_cst : Ref sig .tc := ⟨.hbm, 62, rfl⟩
abbrev main_call2_v0 : Ref sig .tc := ⟨.hbm, 63, rfl⟩
abbrev main_v39 : Ref sig .tc := ⟨.hbm, 64, rfl⟩
abbrev main_cst_10 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_12 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩
abbrev main_cst_14 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_15 : Ref sig .tc := ⟨.hbm, 82, rfl⟩
abbrev main_call3_v0 : Ref sig .tc := ⟨.hbm, 83, rfl⟩
abbrev main_call3_v1 : Ref sig .tc := ⟨.hbm, 84, rfl⟩
abbrev main_v52 : Ref sig .tc := ⟨.hbm, 85, rfl⟩
abbrev main_cst_16 : Ref sig .tc := ⟨.hbm, 86, rfl⟩
abbrev main_v53 : Ref sig .tc := ⟨.hbm, 87, rfl⟩
abbrev main_v54 : Ref sig .tc := ⟨.hbm, 88, rfl⟩
abbrev main_cst_17 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_18 : Ref sig .tc := ⟨.hbm, 93, rfl⟩
abbrev main_call4_v0 : Ref sig .tc := ⟨.hbm, 94, rfl⟩
abbrev main_call4_v1 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_c_19 : Ref sig .tc := ⟨.hbm, 101, rfl⟩
abbrev main_v63 : Ref sig .tc := ⟨.hbm, 102, rfl⟩
abbrev main_v64 : Ref sig .tc := ⟨.hbm, 103, rfl⟩
abbrev main_c_20 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_21 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_call5_cst : Ref sig .tc := ⟨.hbm, 120, rfl⟩
abbrev main_call5_v0 : Ref sig .tc := ⟨.hbm, 121, rfl⟩
abbrev main_v79 : Ref sig .tc := ⟨.hbm, 122, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Layers.lean ====
/-
  The two-layer graph convolution, layer by layer, as functions of whole arrays.

  With A the edge list (src → dst), each layer is  relu( D_in^{-1/2} · Aᵀ-sum( (D_out^{-1/2} · x) W ) + b ):
  `degree` counts how often each node is named by an index list, `norm` is its inverse square root (zero where the
  count is zero), `mm…` scales each row by its node's factor and multiplies by the weights, `agg…` sends every edge's
  source row to its destination and adds, `post…` scales each row by its node's factor, adds the bias row and clamps
  at zero. Every function is written with the host program's own operations, for any float family.
-/
import proofs.«155241_j2087354105940_1_alg».proof.Proof.Gen.ReferenceIdeal

noncomputable section

namespace Cert.Layers

open Cert.ReferenceIdeal Cert.ReferenceIdeal.Gen Idealize.ShloMosaic Idealize.ShloMosaic.TcCoe

variable {F : FTy → Type} [FloatOps F]

/-- How many entries of the index list name each node. -/
def degree (idx : (⟨S1600000, .i32⟩ : BufTy).Contents (Elt F)) : (⟨S100000, .f32⟩ : BufTy).Contents (Elt F) :=
  Host.scatterAdd scatter_S100000_S1600000x1_S1600000_n_0_0_1 (broadcastInDim S100000 ![] bcast_S_S100000 (constant S_ .f32 0x00000000#32)) (broadcastInDim S1600000x1 ![0] bcast_S1600000_S1600000x1_0 idx) (broadcastInDim S1600000 ![] bcast_S_S1600000 (constant S_ .f32 0x3F800000#32))

/-- Each node's factor: one over the square root of its count, and zero where the count is zero. -/
def norm (idx : (⟨S1600000, .i32⟩ : BufTy).Contents (Elt F)) : (⟨S100000, .f32⟩ : BufTy).Contents (Elt F) :=
  select (cmpf (F := F) .ogt (degree idx) (broadcastInDim S100000 ![] bcast_S_S100000 (constant S_ .f32 0x00000000#32))) (Host.rsqrt (maximumf (degree idx) (broadcastInDim S100000 ![] bcast_S_S100000 (constant S_ .f32 0x3F800000#32)))) (broadcastInDim S100000 ![] bcast_S_S100000 (id (constant S_ .f32 0x00000000#32)))

/-- A per-node vector as a column. -/
def col (v : (⟨S100000, .f32⟩ : BufTy).Contents (Elt F)) : (⟨S100000x1, .f32⟩ : BufTy).Contents (Elt F) :=
  broadcastInDim S100000x1 ![0] bcast_S100000_S100000x1_0 v

/-- A bias vector as a row. -/
def row128 (b : (⟨S128, .f32⟩ : BufTy).Contents (Elt F)) : (⟨S1x128, .f32⟩ : BufTy).Contents (Elt F) :=
  broadcastInDim S1x128 ![1] bcast_S128_S1x128_1 b
def row64 (b : (⟨S64, .f32⟩ : BufTy).Contents (Elt F)) : (⟨S1x64, .f32⟩ : BufTy).Contents (Elt F) :=
  broadcastInDim S1x64 ![1] bcast_S64_S1x64_1 b

/-- A negative node number counts from the end. -/
def wrap (src : (⟨S1600000, .i32⟩ : BufTy).Contents (Elt F)) : (⟨S1600000, .i32⟩ : BufTy).Contents (Elt F) :=
  select (cmpi .slt src (broadcastInDim S1600000 ![] bcast_S_S1600000 (constantI S_ 32 0#32))) (addi src (broadcastInDim S1600000 ![] bcast_S_S1600000 (constantI S_ 32 100000#32))) src

/-- Rows scaled by their node's factor, times the weights. -/
def mm128 (x : (⟨S100000x128, .f32⟩ : BufTy).Contents (Elt F)) (n : (⟨S100000x1, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none (mulf x (broadcastInDim S100000x128 ![0, 1] bcast_S100000x1_S100000x128_0_1 n)) w
def mm64 (x : (⟨S100000x128, .f32⟩ : BufTy).Contents (Elt F)) (n : (⟨S100000x1, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none (mulf x (broadcastInDim S100000x128 ![0, 1] bcast_S100000x1_S100000x128_0_1 n)) w

/-- Every edge's source row sent to its destination node and added there. -/
def agg128 (h : (⟨S100000x128, .f32⟩ : BufTy).Contents (Elt F)) (src dst : (⟨S1600000, .i32⟩ : BufTy).Contents (Elt F)) : (⟨S100000x128, .f32⟩ : BufTy).Contents (Elt F) :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (wrap src)))
def agg64 (h : (⟨S100000x64, .f32⟩ : BufTy).Contents (Elt F)) (src dst : (⟨S1600000, .i32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 dst) (Host.gather gather_S100000x64_S1600000x1_S1600000x64_1_0_n_n_0_1_164 h (broadcastInDim S1600000x1 ![0] bcast_S1600000_S1600000x1_0 (wrap src)))

/-- Rows scaled by their node's factor, the bias row added, clamped at zero. -/
def post128 (a : (⟨S100000x128, .f32⟩ : BufTy).Contents (Elt F)) (n : (⟨S100000x1, .f32⟩ : BufTy).Contents (Elt F)) (b : (⟨S1x128, .f32⟩ : BufTy).Contents (Elt F)) : (⟨S100000x128, .f32⟩ : BufTy).Contents (Elt F) :=
  maximumf (addf (mulf a (broadcastInDim S100000x128 ![0, 1] bcast_S100000x1_S100000x128_0_1 n)) (broadcastInDim S100000x128 ![0, 1] bcast_S1x128_S100000x128_0_1 b)) (broadcastInDim S100000x128 ![] bcast_S_S100000x128 (constant S_ .f32 0x00000000#32))
def post64 (a : (⟨S100000x64, .f32⟩ : BufTy).Contents (Elt F)) (n : (⟨S100000x1, .f32⟩ : BufTy).Contents (Elt F)) (b : (⟨S1x64, .f32⟩ : BufTy).Contents (Elt F)) : (⟨S100000x64, .f32⟩ : BufTy).Contents (Elt F) :=
  maximumf (addf (mulf a (broadcastInDim S100000x64 ![0, 1] bcast_S100000x1_S100000x64_0_1 n)) (broadcastInDim S100000x64 ![0, 1] bcast_S1x64_S100000x64_0_1 b)) (broadcastInDim S100000x64 ![] bcast_S_S100000x64 (constant S_ .f32 0x00000000#32))

/-- The two layers. -/
def gcn (x : (⟨S100000x128, .f32⟩ : BufTy).Contents (Elt F)) (w1 : (⟨S128x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) (src dst : (⟨S1600000, .i32⟩ : BufTy).Contents (Elt F)) :
    (⟨S100000x64, .f32⟩ : BufTy).Contents (Elt F) :=
  post64 (agg64 (mm64 (post128 (agg128 (mm128 x (col (norm src)) w1) src dst) (col (norm dst)) (row128 b1)) (col (norm src)) w2) src dst) (col (norm dst)) (row64 b2)

end Cert.Layers

end
-- ==== Proof.KernelValue.lean ====
/-
  The kernel program's result array, read off its run: the two layers applied to the arguments.

  The run leaves the result at the contents the last segment boundary gives it. Walking the boundaries back: each
  kernel region leaves in its output array the whole-array function of its operands (a row-scaled product with the
  weights; a row-scaled sum with the bias row clamped at zero), each host stretch between regions is the edge
  gather-and-add, and the stretch before the first region computes every node's two factors once; the kernel keeps
  them as columns by a reshape where the layer functions broadcast, which is the same column.
-/
import proofs.«155241_j2087354105940_1_alg».proof.Proof.Gen.KernelIdeal.Frame
import proofs.«155241_j2087354105940_1_alg».proof.Proof.Layers
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.Layers

open Cert.KernelIdeal Cert.KernelIdeal.Gen
open Idealize.ShloMosaic Idealize.ShloMosaic.TcCoe Idealize.ShloMosaic.StableHlo Idealize.ShloMosaic.ValueIdx
open Idealize.SL Idealize.SL.Sem
open Idealize.ShloMosaic.Pipeline (Dat)

variable {F : FTy → Type} [FloatOps F]

/-! ## A reshape to a column, or to a row, is the broadcast to it -/

theorem reshape_col (v : (⟨S100000, .f32⟩ : BufTy).Contents (Elt F)) :
    (fun i => shapeCast S100000x1 v shapeCasts_S100000_S100000x1 i) = col v := by
  funext i
  unfold col
  obtain ⟨p, q, rfl⟩ : ∃ (p : Fin 100000) (q : Fin 1), i = ix2 p q := ⟨i 0, i 1, eq_ix2 i⟩
  rw [shapeCast_apply v _ (ix2 p q) (ix1 p) (by
        rw [Shape.rowMajor_val_one, Shape.rowMajor_val_two]; have := q.isLt; show p.val = p.val * 1 + q.val; omega)]
  exact (broadcastInDim_apply _ _ v (ix2 p q) (ix1 p) (fun a => by
        match a with
        | ⟨0, _⟩ => rfl)).symm

theorem reshape_row128 (b : (⟨S128, .f32⟩ : BufTy).Contents (Elt F)) :
    (fun i => shapeCast S1x128 b shapeCasts_S128_S1x128 i) = row128 b := by
  funext i
  unfold row128
  obtain ⟨p, q, rfl⟩ : ∃ (p : Fin 1) (q : Fin 128), i = ix2 p q := ⟨i 0, i 1, eq_ix2 i⟩
  rw [shapeCast_apply b _ (ix2 p q) (ix1 q) (by
        rw [Shape.rowMajor_val_one, Shape.rowMajor_val_two]; have := p.isLt; show q.val = p.val * 128 + q.val; omega)]
  exact (broadcastInDim_apply _ _ b (ix2 p q) (ix1 q) (fun a => by
        match a with
        | ⟨0, _⟩ => rfl)).symm

theorem reshape_row64 (b : (⟨S64, .f32⟩ : BufTy).Contents (Elt F)) :
    (fun i => shapeCast S1x64 b shapeCasts_S64_S1x64 i) = row64 b := by
  funext i
  unfold row64
  obtain ⟨p, q, rfl⟩ : ∃ (p : Fin 1) (q : Fin 64), i = ix2 p q := ⟨i 0, i 1, eq_ix2 i⟩
  rw [shapeCast_apply b _ (ix2 p q) (ix1 q) (by
        rw [Shape.rowMajor_val_one, Shape.rowMajor_val_two]; have := p.isLt; show q.val = p.val * 64 + q.val; omega)]
  exact (broadcastInDim_apply _ _ b (ix2 p q) (ix1 q) (fun a => by
        match a with
        | ⟨0, _⟩ => rfl)).symm

/-! ## The host stretches, from any contents `Wp` -/

/-- The stretch before the first region: the source lists' factors as a column. -/
abbrev pre (Wp : Valuation τ sig (Elt F)) : Valuation τ sig (Elt F) :=
  StableHlo.after hostOps0_4 (StableHlo.after hostOps0_3 (StableHlo.after hostOps0_2 (StableHlo.after hostOps0_1 (StableHlo.after hostOps0 Wp))))

set_option maxHeartbeats 4000000 in
theorem pre_v19 (Wp : Valuation τ sig (Elt F)) :
    pre Wp (Proc.devRef .tc main_v19) = col (norm (Wp (Proc.devRef .tc main_arg5))) := by
  rw [← reshape_col]
  unfold pre
  after_results_simp
  simp only [TRef.ofBuf, TRef.toBuf, cast_eq]
  rfl

set_option maxHeartbeats 4000000 in
theorem pre_v20 (Wp : Valuation τ sig (Elt F)) :
    pre Wp (Proc.devRef .tc main_v20) = col (norm (Wp (Proc.devRef .tc main_arg6))) := by
  rw [← reshape_col]
  unfold pre
  after_results_simp
  simp only [TRef.ofBuf, TRef.toBuf, cast_eq]
  rfl

set_option maxHeartbeats 4000000 in
theorem pre_args (Wp : Valuation τ sig (Elt F)) :
    pre Wp (Proc.devRef .tc main_arg0) = Wp (Proc.devRef .tc main_arg0)
    ∧ pre Wp (Proc.devRef .tc main_arg1) = Wp (Proc.devRef .tc main_arg1)
    ∧ pre Wp (Proc.devRef .tc main_arg2) = Wp (Proc.devRef .tc main_arg2)
    ∧ pre Wp (Proc.devRef .tc main_arg3) = Wp (Proc.devRef .tc main_arg3)
    ∧ pre Wp (Proc.devRef .tc main_arg4) = Wp (Proc.devRef .tc main_arg4)
    ∧ pre Wp (Proc.devRef .tc main_arg5) = Wp (Proc.devRef .tc main_arg5)
    ∧ pre Wp (Proc.devRef .tc main_arg6) = Wp (Proc.devRef .tc main_arg6) := by
  unfold pre
  refine ⟨?_, ?_, ?_, ?_, ?_, ?_, ?_⟩ <;> after_results_simp

set_option maxHeartbeats 4000000 in
/-- The stretch between the first two regions: the first layer's edge sum and its bias as a row. -/
theorem mid1 (Wp : Valuation τ sig (Elt F)) :
    StableHlo.after hostOps1 Wp (Proc.devRef .tc main_v31)
      = agg128 (Wp (Proc.devRef .tc main_v21)) (Wp (Proc.devRef .tc main_arg5)) (Wp (Proc.devRef .tc main_arg6))
    ∧ StableHlo.after hostOps1 Wp (Proc.devRef .tc main_v32) = row128 (Wp (Proc.devRef .tc main_arg2))
    ∧ StableHlo.after hostOps1 Wp (Proc.devRef .tc main_v19) = Wp (Proc.devRef .tc main_v19)
    ∧ StableHlo.after hostOps1 Wp (Proc.devRef .tc main_v20) = Wp (Proc.devRef .tc main_v20)
    ∧ StableHlo.after hostOps1 Wp (Proc.devRef .tc main_arg3) = Wp (Proc.devRef .tc main_arg3)
    ∧ StableHlo.after hostOps1 Wp (Proc.devRef .tc main_arg4) = Wp (Proc.devRef .tc main_arg4)
    ∧ StableHlo.after hostOps1 Wp (Proc.devRef .tc main_arg5) = Wp (Proc.devRef .tc main_arg5)
    ∧ StableHlo.after hostOps1 Wp (Proc.devRef .tc main_arg6) = Wp (Proc.devRef .tc main_arg6) := by
  refine ⟨?_, ?_, ?_, ?_, ?_, ?_, ?_, ?_⟩
  · after_results_simp; rfl
  · rw [← reshape_row128]; after_results_simp; rfl
  all_goals after_results_simp

set_option maxHeartbeats 4000000 in
/-- The stretch before the last region: the second layer's edge sum and its bias as a row. -/
theorem mid3 (Wp : Valuation τ sig (Elt F)) :
    StableHlo.after hostOps3 Wp (Proc.devRef .tc main_v44)
      = agg64 (Wp (Proc.devRef .tc main_v34)) (Wp (Proc.devRef .tc main_arg5)) (Wp (Proc.devRef .tc main_arg6))
    ∧ StableHlo.after hostOps3 Wp (Proc.devRef .tc main_v45) = row64 (Wp (Proc.devRef .tc main_arg4))
    ∧ StableHlo.after hostOps3 Wp (Proc.devRef .tc main_v20) = Wp (Proc.devRef .tc main_v20) := by
  refine ⟨?_, ?_, ?_⟩
  · after_results_simp; rfl
  · rw [← reshape_row64]; after_results_simp; rfl
  · after_results_simp

/-! ## The run's boundaries, walked -/

section Walk

variable (m : (ℓ : Loc nD τ sig) → Buf (Elt Ideal) ℓ) (ρ : Dev nD → PrngReg)

-- each region's output array as the layer function of its operands' region-entry contents
variable (hmm128 : ∀ (V : (c : Dev nD) → (b : Ref sig .tc) → Buf (Elt Ideal) ((c : Thread nD τ).loc b)) (c : Dev nD),
    (dat0 (F := Ideal) V c).arrAt 3 cfg0.N = mm128 (F := Ideal) (V c main_arg0) (V c main_v19) (V c main_arg1))
variable (hpost128 : ∀ (V : (c : Dev nD) → (b : Ref sig .tc) → Buf (Elt Ideal) ((c : Thread nD τ).loc b)) (c : Dev nD),
    (dat1 (F := Ideal) V c).arrAt 3 cfg1.N = post128 (F := Ideal) (V c main_v31) (V c main_v20) (V c main_v32))
variable (hmm64 : ∀ (V : (c : Dev nD) → (b : Ref sig .tc) → Buf (Elt Ideal) ((c : Thread nD τ).loc b)) (c : Dev nD),
    (dat2 (F := Ideal) V c).arrAt 3 cfg2.N = mm64 (F := Ideal) (V c main_v33) (V c main_v19) (V c main_arg3))
variable (hpost64 : ∀ (V : (c : Dev nD) → (b : Ref sig .tc) → Buf (Elt Ideal) ((c : Thread nD τ).loc b)) (c : Dev nD),
    (dat3 (F := Ideal) V c).arrAt 3 cfg3.N = post64 (F := Ideal) (V c main_v44) (V c main_v20) (V c main_v45))

/-- At the first region's entry: the two factor columns, and the arguments as launched. -/
theorem at5 (c : Dev nD) :
    W5 m ρ c (Proc.devRef .tc main_v19) = col (norm (m ((c : Thread nD τ).loc main_arg5)))
    ∧ W5 m ρ c (Proc.devRef .tc main_v20) = col (norm (m ((c : Thread nD τ).loc main_arg6)))
    ∧ W5 m ρ c (Proc.devRef .tc main_arg0) = m ((c : Thread nD τ).loc main_arg0)
    ∧ W5 m ρ c (Proc.devRef .tc main_arg1) = m ((c : Thread nD τ).loc main_arg1)
    ∧ W5 m ρ c (Proc.devRef .tc main_arg2) = m ((c : Thread nD τ).loc main_arg2)
    ∧ W5 m ρ c (Proc.devRef .tc main_arg3) = m ((c : Thread nD τ).loc main_arg3)
    ∧ W5 m ρ c (Proc.devRef .tc main_arg4) = m ((c : Thread nD τ).loc main_arg4)
    ∧ W5 m ρ c (Proc.devRef .tc main_arg5) = m ((c : Thread nD τ).loc main_arg5)
    ∧ W5 m ρ c (Proc.devRef .tc main_arg6) = m ((c : Thread nD τ).loc main_arg6) := by
  obtain ⟨e0, e1, e2, e3, e4, e5, e6⟩ := pre_args (F := Ideal) (W0 m ρ c)
  exact ⟨pre_v19 (W0 m ρ c), pre_v20 (W0 m ρ c), e0, e1, e2, e3, e4, e5, e6⟩

include hmm128

/-- After the first region: the first layer's product, and what it did not write as before. -/
theorem at6 (c : Dev nD) :
    W6 m ρ c (Proc.devRef .tc main_v21)
      = mm128 (F := Ideal) (m ((c : Thread nD τ).loc main_arg0)) (col (norm (m ((c : Thread nD τ).loc main_arg5)))) (m ((c : Thread nD τ).loc main_arg1))
    ∧ W6 m ρ c (Proc.devRef .tc main_v19) = col (norm (m ((c : Thread nD τ).loc main_arg5)))
    ∧ W6 m ρ c (Proc.devRef .tc main_v20) = col (norm (m ((c : Thread nD τ).loc main_arg6)))
    ∧ W6 m ρ c (Proc.devRef .tc main_arg2) = m ((c : Thread nD τ).loc main_arg2)
    ∧ W6 m ρ c (Proc.devRef .tc main_arg3) = m ((c : Thread nD τ).loc main_arg3)
    ∧ W6 m ρ c (Proc.devRef .tc main_arg4) = m ((c : Thread nD τ).loc main_arg4)
    ∧ W6 m ρ c (Proc.devRef .tc main_arg5) = m ((c : Thread nD τ).loc main_arg5)
    ∧ W6 m ρ c (Proc.devRef .tc main_arg6) = m ((c : Thread nD τ).loc main_arg6) := by
  obtain ⟨e19, e20, e0, e1, e2, e3, e4, e5, e6⟩ := at5 m ρ c
  have h21 : W6 m ρ c (Proc.devRef .tc main_v21)
      = mm128 (F := Ideal) (W5 m ρ c (Proc.devRef .tc main_arg0)) (W5 m ρ c (Proc.devRef .tc main_v19)) (W5 m ρ c (Proc.devRef .tc main_arg1)) :=
    (W6_arr m ρ c 3).trans (hmm128 (V5 m ρ) c)
  rw [e0, e19, e1] at h21
  have h19 : W6 m ρ c (Proc.devRef .tc main_v19) = W5 m ρ c (Proc.devRef .tc main_v19) :=
    (W6_arr m ρ c 1).trans (((dat0 (V5 m ρ) c).arrAt_in 1 rfl _).trans (A_eq0 (V5 m ρ) c 1))
  exact ⟨h21, h19.trans e19,
    (W6_of_ne m ρ c main_v20 (by decide)).trans e20,
    (W6_of_ne m ρ c main_arg2 (by decide)).trans e2,
    (W6_of_ne m ρ c main_arg3 (by decide)).trans e3,
    (W6_of_ne m ρ c main_arg4 (by decide)).trans e4,
    (W6_of_ne m ρ c main_arg5 (by decide)).trans e5,
    (W6_of_ne m ρ c main_arg6 (by decide)).trans e6⟩

/-- At the second region's entry: the first layer's edge sum and bias row. -/
theorem at7 (c : Dev nD) :
    W7 m ρ c (Proc.devRef .tc main_v31)
      = agg128 (mm128 (F := Ideal) (m ((c : Thread nD τ).loc main_arg0)) (col (norm (m ((c : Thread nD τ).loc main_arg5)))) (m ((c : Thread nD τ).loc main_arg1)))
          (m ((c : Thread nD τ).loc main_arg5)) (m ((c : Thread nD τ).loc main_arg6))
    ∧ W7 m ρ c (Proc.devRef .tc main_v32) = row128 (m ((c : Thread nD τ).loc main_arg2))
    ∧ W7 m ρ c (Proc.devRef .tc main_v19) = col (norm (m ((c : Thread nD τ).loc main_arg5)))
    ∧ W7 m ρ c (Proc.devRef .tc main_v20) = col (norm (m ((c : Thread nD τ).loc main_arg6)))
    ∧ W7 m ρ c (Proc.devRef .tc main_arg3) = m ((c : Thread nD τ).loc main_arg3)
    ∧ W7 m ρ c (Proc.devRef .tc main_arg4) = m ((c : Thread nD τ).loc main_arg4)
    ∧ W7 m ρ c (Proc.devRef .tc main_arg5) = m ((c : Thread nD τ).loc main_arg5)
    ∧ W7 m ρ c (Proc.devRef .tc main_arg6) = m ((c : Thread nD τ).loc main_arg6) := by
  obtain ⟨e21, e19, e20, e2, e3, e4, e5, e6⟩ := at6 m ρ hmm128 c
  obtain ⟨f31, f32, f19, f20, f3, f4, f5, f6⟩ := mid1 (F := Ideal) (W6 m ρ c)
  rw [e21, e5, e6] at f31
  rw [e2] at f32
  exact ⟨f31, f32, f19.trans e19, f20.trans e20, f3.trans e3, f4.trans e4, f5.trans e5, f6.trans e6⟩

include hpost128

/-- After the second region: the first layer's output. -/
theorem at8 (c : Dev nD) :
    W8 m ρ c (Proc.devRef .tc main_v33)
      = post128 (F := Ideal) (agg128 (mm128 (F := Ideal) (m ((c : Thread nD τ).loc main_arg0)) (col (norm (m ((c : Thread nD τ).loc main_arg5)))) (m ((c : Thread nD τ).loc main_arg1)))
          (m ((c : Thread nD τ).loc main_arg5)) (m ((c : Thread nD τ).loc main_arg6)))
          (col (norm (m ((c : Thread nD τ).loc main_arg6)))) (row128 (m ((c : Thread nD τ).loc main_arg2)))
    ∧ W8 m ρ c (Proc.devRef .tc main_v19) = col (norm (m ((c : Thread nD τ).loc main_arg5)))
    ∧ W8 m ρ c (Proc.devRef .tc main_v20) = col (norm (m ((c : Thread nD τ).loc main_arg6)))
    ∧ W8 m ρ c (Proc.devRef .tc main_arg3) = m ((c : Thread nD τ).loc main_arg3)
    ∧ W8 m ρ c (Proc.devRef .tc main_arg4) = m ((c : Thread nD τ).loc main_arg4)
    ∧ W8 m ρ c (Proc.devRef .tc main_arg5) = m ((c : Thread nD τ).loc main_arg5)
    ∧ W8 m ρ c (Proc.devRef .tc main_arg6) = m ((c : Thread nD τ).loc main_arg6) := by
  obtain ⟨e31, e32, e19, e20, e3, e4, e5, e6⟩ := at7 m ρ hmm128 c
  have h33 : W8 m ρ c (Proc.devRef .tc main_v33)
      = post128 (F := Ideal) (W7 m ρ c (Proc.devRef .tc main_v31)) (W7 m ρ c (Proc.devRef .tc main_v20)) (W7 m ρ c (Proc.devRef .tc main_v32)) :=
    (W8_arr m ρ c 3).trans (hpost128 (V7 m ρ) c)
  rw [e31, e20, e32] at h33
  have h20 : W8 m ρ c (Proc.devRef .tc main_v20) = W7 m ρ c (Proc.devRef .tc main_v20) :=
    (W8_arr m ρ c 1).trans (((dat1 (V7 m ρ) c).arrAt_in 1 rfl _).trans (A_eq1 (V7 m ρ) c 1))
  exact ⟨h33, (W8_of_ne m ρ c main_v19 (by decide)).trans e19, h20.trans e20,
    (W8_of_ne m ρ c main_arg3 (by decide)).trans e3,
    (W8_of_ne m ρ c main_arg4 (by decide)).trans e4,
    (W8_of_ne m ρ c main_arg5 (by decide)).trans e5,
    (W8_of_ne m ρ c main_arg6 (by decide)).trans e6⟩

include hmm64

/-- After the third region: the second layer's product. -/
theorem at9 (c : Dev nD) :
    W9 m ρ c (Proc.devRef .tc main_v34)
      = mm64 (F := Ideal) (post128 (F := Ideal) (agg128 (mm128 (F := Ideal) (m ((c : Thread nD τ).loc main_arg0)) (col (norm (m ((c : Thread nD τ).loc main_arg5)))) (m ((c : Thread nD τ).loc main_arg1)))
          (m ((c : Thread nD τ).loc main_arg5)) (m ((c : Thread nD τ).loc main_arg6)))
          (col (norm (m ((c : Thread nD τ).loc main_arg6)))) (row128 (m ((c : Thread nD τ).loc main_arg2))))
          (col (norm (m ((c : Thread nD τ).loc main_arg5)))) (m ((c : Thread nD τ).loc main_arg3))
    ∧ W9 m ρ c (Proc.devRef .tc main_v20) = col (norm (m ((c : Thread nD τ).loc main_arg6)))
    ∧ W9 m ρ c (Proc.devRef .tc main_arg4) = m ((c : Thread nD τ).loc main_arg4)
    ∧ W9 m ρ c (Proc.devRef .tc main_arg5) = m ((c : Thread nD τ).loc main_arg5)
    ∧ W9 m ρ c (Proc.devRef .tc main_arg6) = m ((c : Thread nD τ).loc main_arg6) := by
  obtain ⟨e33, e19, e20, e3, e4, e5, e6⟩ := at8 m ρ hmm128 hpost128 c
  have h34 : W9 m ρ c (Proc.devRef .tc main_v34)
      = mm64 (F := Ideal) (W8 m ρ c (Proc.devRef .tc main_v33)) (W8 m ρ c (Proc.devRef .tc main_v19)) (W8 m ρ c (Proc.devRef .tc main_arg3)) :=
    (W9_arr m ρ c 3).trans (hmm64 (V8 m ρ) c)
  rw [e33, e19, e3] at h34
  exact ⟨h34, (W9_of_ne m ρ c main_v20 (by decide)).trans e20,
    (W9_of_ne m ρ c main_arg4 (by decide)).trans e4,
    (W9_of_ne m ρ c main_arg5 (by decide)).trans e5,
    (W9_of_ne m ρ c main_arg6 (by decide)).trans e6⟩

include hpost64

/-- The result array after the run is the two layers of the arguments. -/
theorem kernel_result (c : Dev nD) :
    W11 m ρ c (Proc.devRef .tc main_v46)
      = gcn (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  obtain ⟨e34, e20, e4, e5, e6⟩ := at9 m ρ hmm128 hpost128 hmm64 c
  obtain ⟨f44, f45, f20⟩ := mid3 (F := Ideal) (W9 m ρ c)
  rw [e34, e5, e6] at f44
  rw [e4] at f45
  have h46 : W11 m ρ c (Proc.devRef .tc main_v46)
      = post64 (F := Ideal) (W10 m ρ c (Proc.devRef .tc main_v44)) (W10 m ρ c (Proc.devRef .tc main_v20)) (W10 m ρ c (Proc.devRef .tc main_v45)) :=
    (W11_arr m ρ c 3).trans (hpost64 (V10 m ρ) c)
  rw [h46]
  unfold gcn
  exact congr (congr (congrArg post64 f44) (f20.trans e20)) f45

end Walk

end Cert.Layers

end
-- ==== Proof.RefValue.lean ====
/-
  The reference's result is the two layers applied to its arguments: its composed term, read layer by layer.
-/
import proofs.«155241_j2087354105940_1_alg».proof.Proof.RefRun
import proofs.«155241_j2087354105940_1_alg».proof.Proof.Layers

set_option maxRecDepth 16384

noncomputable section

namespace Cert.Layers

open Cert.ReferenceIdeal Idealize.ShloMosaic Idealize.ShloMosaic.TcCoe Idealize.SL.Sem

variable {F : FTy → Type} [FloatOps F]

/-- The reference computes each node's two factors twice, once per layer, from the same index lists: the same values. -/
theorem ref_result (m : (ℓ : Loc nD τ sig) → Buf (Elt F) ℓ) (c : Dev nD) :
    Cert.ReferenceIdeal.RunP.res_main_v79 m c
      = gcn (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.RunP.res_main_v79 gcn post64 agg64 mm64 post128 agg128 mm128 col row128 row64 norm wrap degree
  rfl

end Cert.Layers

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.LibPlainDotGeneral.lean ====
/-
  The host's plain matrix product read at an entry.

  For the dimension numbers of an M×K operand times a K×N operand with no batch axis, the host's `dot_general` has, at
  entry (p, q), the value Σ_k lhs (p, k) · rhs (k, q) on the extended reals, whatever its precision and schedule keys:
  the same sum a kernel's product into the zero array has there. Generic in the three extents and the operands' formats.
-/
import proofs.«155241_j2087354105940_1_alg».proof.Proof.LibPlainDot

namespace Idealize.ShloMosaic.PlainDot

open Idealize.ShloMosaic Idealize.ShloMosaic.ValueIdx

/-- A plain M×K by K×N host product, at entry (p, q), is `Σ_k lhs (p, k) · rhs (k, q)`. -/
theorem dotGeneral_apply {φ₁ φ₂ : FTy} (M K N : Nat) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.RegionMM.lean ====
/-
  The two scaled products, each read off its region as one whole array.

  Regions 0 and 2 run the same body over a grid of 25 points. At point t the body holds rows 4000 t … 4000 t + 3999 of
  the row operand x and of the column of per-row factors n, and the whole weight matrix W; it scales each row of the
  block by its factor, multiplies by W, and the block of 4000 rows of the product is written back as rows
  4000 t … 4000 t + 3999 of the output. On the extended reals entry (r, q) of what is written is
  Σ_k (x (r, k) · n (r, 0)) · W (k, q), and the layer function, the product of the whole scaled array with W, has exactly
  this sum at (r, q): a block of rows of a matrix product is the product of that block of rows, so no law of the
  extended reals beyond the two readings of a product at an entry is used. The 25 blocks tile the 100000 rows (row r
  lies in the block of point r / 4000), so after the region the output array is the layer function of the arrays the
  region found.
-/
import proofs.«155241_j2087354105940_1_alg».proof.Proof.Gen.KernelIdeal.Frame
import proofs.«155241_j2087354105940_1_alg».proof.Proof.Layers
import proofs.«155241_j2087354105940_1_alg».proof.Proof.LibPlainDotGeneral
import Idealize.ShloMosaic.Lib.Pipeline.Value
import Idealize.ShloMosaic.PureOps.Ideal
import Idealize.ShloMosaic.PureOps.Ideal.Laws
import Idealize.ShloMosaic.Lib.ValueIdx
import Idealize.ShloMosaic.Lib.ValueLayout

set_option maxRecDepth 16384

noncomputable section

open Cert.KernelIdeal Cert.KernelIdeal.Gen Cert.Layers
open Idealize.ShloMosaic Idealize.ShloMosaic.TcCoe Idealize.ShloMosaic.ValueIdx
open Idealize.SL Idealize.SL.Sem
open Idealize.ShloMosaic.Pipeline (Dat)

namespace Cert.Layers.RegionMM

/-! ## The two sums at an entry -/

/-- The body's product at entry (p, q) of a block: the sum over k of (x (p, k) · n (p, 0)) · W (k, q). -/
theorem pay0_apply (x0 : Vec Ideal S4000x128 .f32) (x1 : Vec Ideal S4000x1 .f32) (x2 : Vec Ideal S128x128 .f32)
    (p : Fin 4000) (q : Fin 128) :
    (k0_pay1 (F := Ideal) x0 x1 x2) (ix2 p q) = ∑ k : Fin 128, (x0 (ix2 p k) * x1 (ix2 p 0)) * x2 (ix2 k q) := by
  unfold k0_pay1
  refine (PlainDot.matmul_zero_apply 4000 128 128 _ _ p q).trans ?_
  refine Finset.sum_congr rfl fun k _ => ?_
  rw [truncf_apply, truncf_apply, mulf_apply, shapeCast_self,
    broadcastTo_apply x1 broadcasts_S4000x1_S4000x128 (ix2 p k) (ix2 p 0) (fun a => by
      match a with
      | ⟨0, _⟩ => rfl
      | ⟨1, _⟩ => rfl)]

/-- The layer at entry (r, q) of the whole array: the same sum, over row r. -/
theorem mm128_apply (x : Vec Ideal S100000x128 .f32) (n : Vec Ideal S100000x1 .f32) (w : Vec Ideal S128x128 .f32)
    (r : Fin 100000) (q : Fin 128) :
    (mm128 (F := Ideal) x n w) (ix2 r q) = ∑ k : Fin 128, (x (ix2 r k) * n (ix2 r 0)) * w (ix2 k q) := by
  unfold mm128
  refine (PlainDot.dotGeneral_apply 100000 128 128 none .single _ _ r q).trans ?_
  refine Finset.sum_congr rfl fun k _ => ?_
  rw [mulf_apply, broadcastInDim_apply ![0, 1] Cert.ReferenceIdeal.Gen.bcast_S100000x1_S100000x128_0_1 n (ix2 r k) (ix2 r 0) (fun a => by
      match a with
      | ⟨0, _⟩ => rfl
      | ⟨1, _⟩ => rfl)]

/-- The body's product at entry (p, q) of a block: the sum over k of (x (p, k) · n (p, 0)) · W (k, q). -/
theorem pay2_apply (x0 : Vec Ideal S4000x128 .f32) (x1 : Vec Ideal S4000x1 .f32) (x2 : Vec Ideal S128x64 .f32)
    (p : Fin 4000) (q : Fin 64) :
    (k2_pay1 (F := Ideal) x0 x1 x2) (ix2 p q) = ∑ k : Fin 128, (x0 (ix2 p k) * x1 (ix2 p 0)) * x2 (ix2 k q) := by
  unfold k2_pay1
  refine (PlainDot.matmul_zero_apply 4000 128 64 _ _ p q).trans ?_
  refine Finset.sum_congr rfl fun k _ => ?_
  rw [truncf_apply, truncf_apply, mulf_apply, shapeCast_self, shapeCast_self,
    broadcastTo_apply x1 broadcasts_S4000x1_S4000x128 (ix2 p k) (ix2 p 0) (fun a => by
      match a with
      | ⟨0, _⟩ => rfl
      | ⟨1, _⟩ => rfl)]

/-- The layer at entry (r, q) of the whole array: the same sum, over row r. -/
theorem mm64_apply (x : Vec Ideal S100000x128 .f32) (n : Vec Ideal S100000x1 .f32) (w : Vec Ideal S128x64 .f32)
    (r : Fin 100000) (q : Fin 64) :
    (mm64 (F := Ideal) x n w) (ix2 r q) = ∑ k : Fin 128, (x (ix2 r k) * n (ix2 r 0)) * w (ix2 k q) := by
  unfold mm64
  refine (PlainDot.dotGeneral_apply 100000 128 64 none .single _ _ r q).trans ?_
  refine Finset.sum_congr rfl fun k _ => ?_
  rw [mulf_apply, broadcastInDim_apply ![0, 1] Cert.ReferenceIdeal.Gen.bcast_S100000x1_S100000x128_0_1 n (ix2 r k) (ix2 r 0) (fun a => by
      match a with
      | ⟨0, _⟩ => rfl
      | ⟨1, _⟩ => rfl)]

variable (V : (c : Dev nD) → (b : Ref sig .tc) → Buf (Elt Ideal) ((c : Thread nD τ).loc b))

/-- Every block the body touches starts at the origin of its buffer. -/
theorem hz : (![0, 0] : Fin 2 → Nat) = fun _ => 0 := funext fun a => by fin_cases a <;> rfl

/-! ## Region 0

The row operand is the first argument, the weights the 128 × 128 matrix. -/

/-- The index maps over the grid: at point t the row operand, the column of factors and the output sit at block
    (t, 0), the weights at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The grid has 25 points. -/
theorem lt0 (t : Fin cfg0.N) : t.val < 25 := lt_of_lt_of_eq t.isLt N_0

/-- Entry (p, k) of the row operand's block at point t is entry (4000 t + p, k) of the array. -/
theorem xblk0 (c : Dev nD) (t : Fin cfg0.N) (p : Fin 4000) (k : Fin 128) (hr : 4000 * t.val + p.val < 100000) :
    (iblk0 V c 0 t : Vec Ideal S4000x128 .f32) (ix2 p k)
      = (V c main_arg0 : S100000x128.Idx → Elt Ideal .f32) (ix2 ⟨4000 * t.val + p.val, hr⟩ k) := by
  obtain ⟨e0, e1, -⟩ := idx0 t
  unfold iblk0
  rw [View.read_apply]
  show V c main_arg0 _ = V c main_arg0 _
  refine congrArg (V c main_arg0) ?_
  funext a
  apply Fin.ext
  match a with
  | ⟨0, _⟩ => show win0_0.index t (0 : Fin 2) * 4000 + 1 * p.val = 4000 * t.val + p.val; rw [e0]; omega
  | ⟨1, _⟩ => show win0_0.index t (1 : Fin 2) * 128 + 1 * k.val = k.val; rw [e1]; omega

/-- Entry (p, 0) of the factor column's block at point t is entry (4000 t + p, 0) of the column. -/
theorem nblk0 (c : Dev nD) (t : Fin cfg0.N) (p : Fin 4000) (hr : 4000 * t.val + p.val < 100000) :
    (iblk0 V c 1 t : Vec Ideal S4000x1 .f32) (ix2 p 0)
      = (V c main_v19 : S100000x1.Idx → Elt Ideal .f32) (ix2 ⟨4000 * t.val + p.val, hr⟩ 0) := by
  obtain ⟨-, -, e0, e1, -⟩ := idx0 t
  unfold iblk0
  rw [View.read_apply]
  show V c main_v19 _ = V c main_v19 _
  refine congrArg (V c main_v19) ?_
  funext a
  apply Fin.ext
  match a with
  | ⟨0, _⟩ => show win0_1.index t (0 : Fin 2) * 4000 + 1 * p.val = 4000 * t.val + p.val; rw [e0]; omega
  | ⟨1, _⟩ => show win0_1.index t (1 : Fin 2) * 1 + 1 * (0 : Fin 1).val = (0 : Fin 1).val; rw [e1]; rfl

/-- The weights' block at every point is the whole array. -/
theorem wblk0 (c : Dev nD) (t : Fin cfg0.N) (k : Fin 128) (q : Fin 128) :
    (iblk0 V c 2 t : Vec Ideal S128x128 .f32) (ix2 k q)
      = (V c main_arg1 : S128x128.Idx → Elt Ideal .f32) (ix2 k q) := by
  obtain ⟨-, -, -, -, e0, e1, -⟩ := idx0 t
  unfold iblk0
  rw [View.read_apply]
  show V c main_arg1 _ = V c main_arg1 _
  refine congrArg (V c main_arg1) ?_
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- Entry (p, q) of the output's block at point t sits at entry (4000 t + p, q) of the output array. -/
theorem oemb0 (t : Fin cfg0.N) (p : Fin 4000) (q : Fin 128) (hr : 4000 * t.val + p.val < 100000) :
    ((cfg0.win 3).blk t).view.emb (ix2 p q) = (ix2 ⟨4000 * t.val + p.val, hr⟩ q : S100000x128.Idx) := by
  obtain ⟨-, -, -, -, -, -, e0, e1⟩ := idx0 t
  funext a
  apply Fin.ext
  match a with
  | ⟨0, _⟩ => show win0_3.index t (0 : Fin 2) * 4000 + 1 * p.val = 4000 * t.val + p.val; rw [e0]; omega
  | ⟨1, _⟩ => show win0_3.index t (1 : Fin 2) * 128 + 1 * q.val = q.val; rw [e1]; omega

/-- What point t writes back is block t of the layer of the region's three arrays: a block of rows of a matrix
    product is the product of that block of rows. -/
theorem flushed0_eq (c : Dev nD) (t : Fin cfg0.N) :
    (dat0 (F := Ideal) V c).flushed 3 t
      = ((cfg0.win 3).blk t).view.read (Elt Ideal) (mm128 (F := Ideal) (V c main_arg0) (V c main_v19) (V c main_arg1)) := by
  show (cfg0.win 3).cut (grid0.coords t) ((dat0 V c).after 3 t) = _
  rw [after0_3]
  unfold out0_3
  rw [View.canon_unit_zero hz]
  simp only [View.ld_unit_zero (S := S4000x128) hz, View.ld_unit_zero (S := S4000x1) hz, View.ld_unit_zero (S := S128x128) hz]
  funext j
  obtain ⟨p, q, rfl⟩ : ∃ (p : Fin 4000) (q : Fin 128), j = ix2 p q := ⟨j 0, j 1, eq_ix2 j⟩
  have ht := lt0 t
  have hr : 4000 * t.val + p.val < 100000 := by have := p.isLt; omega
  rw [View.read_apply]
  show (k0_pay1 (F := Ideal) (iblk0 V c 0 t) (iblk0 V c 1 t) (iblk0 V c 2 t)) (ix2 p q)
      = mm128 (F := Ideal) (V c main_arg0) (V c main_v19) (V c main_arg1) (((cfg0.win 3).blk t).view.emb (ix2 p q))
  rw [oemb0 t p q hr]
  refine (pay0_apply _ _ _ p q).trans ?_
  refine Eq.trans ?_ (mm128_apply _ _ _ ⟨4000 * t.val + p.val, hr⟩ q).symm
  refine Finset.sum_congr rfl fun k _ => ?_
  rw [xblk0 V c t p k hr, nblk0 V c t p hr, wblk0 V c t k q]

/-- An index of the output array lies in point t's block iff each coordinate lies in the block's range on its axis. -/
theorem mem_blk0 (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v21).slice (win0_3.rect t)).set ↔ _
  rw [View.set_slice_whole, Rect.mem_set_unit]
  exact Iff.rfl

/-- Every index of the output array is written back: row r lies in the block of point r / 4000. -/
theorem cover0 (i : S100000x128.Idx) :
    ∃ t : Fin cfg0.N, (cfg0.win 3).flush t = true ∧ i ∈ ((cfg0.win 3).blk t).view.set := by
  have hN : cfg0.N = 25 := N_0
  have hi0 : (i 0).val < 100000 := (i 0).isLt
  have hi1 : (i 1).val < 128 := (i 1).isLt
  obtain ⟨t, ht⟩ : ∃ t : Fin cfg0.N, t.val = (i 0).val / 4000 := ⟨⟨(i 0).val / 4000, by rw [hN]; omega⟩, rfl⟩
  obtain ⟨-, -, -, -, -, -, e0, e1⟩ := idx0 t
  refine ⟨t, flush0_3 t, ?_⟩
  rw [mem_blk0]
  intro a
  match a with
  | ⟨0, _⟩ =>
    show win0_3.index t (0 : Fin 2) * 4000 ≤ (i 0).val ∧ (i 0).val < win0_3.index t (0 : Fin 2) * 4000 + 4000
    rw [e0]; omega
  | ⟨1, _⟩ =>
    show win0_3.index t (1 : Fin 2) * 128 ≤ (i 1).val ∧ (i 1).val < win0_3.index t (1 : Fin 2) * 128 + 128
    rw [e1]; omega

/-! ## Region 2

The same body over the same grid, with a 128 × 64 weight matrix and 64 output columns; its row operand is the array
region 1's output window names, its column of factors the array region 0's second window names. -/

/-- The index maps over the grid: at point t the row operand, the column of factors and the output sit at block
    (t, 0), the weights at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The grid has 25 points. -/
theorem lt2 (t : Fin cfg2.N) : t.val < 25 := lt_of_lt_of_eq t.isLt N_2

/-- Entry (p, k) of the row operand's block at point t is entry (4000 t + p, k) of the array. -/
theorem xblk2 (c : Dev nD) (t : Fin cfg2.N) (p : Fin 4000) (k : Fin 128) (hr : 4000 * t.val + p.val < 100000) :
    (iblk2 V c 0 t : Vec Ideal S4000x128 .f32) (ix2 p k)
      = (V c main_v33 : S100000x128.Idx → Elt Ideal .f32) (ix2 ⟨4000 * t.val + p.val, hr⟩ k) := by
  obtain ⟨e0, e1, -⟩ := idx2 t
  unfold iblk2
  rw [View.read_apply]
  show V c main_v33 _ = V c main_v33 _
  refine congrArg (V c main_v33) ?_
  funext a
  apply Fin.ext
  match a with
  | ⟨0, _⟩ => show win2_0.index t (0 : Fin 2) * 4000 + 1 * p.val = 4000 * t.val + p.val; rw [e0]; omega
  | ⟨1, _⟩ => show win2_0.index t (1 : Fin 2) * 128 + 1 * k.val = k.val; rw [e1]; omega

/-- Entry (p, 0) of the factor column's block at point t is entry (4000 t + p, 0) of the column. -/
theorem nblk2 (c : Dev nD) (t : Fin cfg2.N) (p : Fin 4000) (hr : 4000 * t.val + p.val < 100000) :
    (iblk2 V c 1 t : Vec Ideal S4000x1 .f32) (ix2 p 0)
      = (V c main_v19 : S100000x1.Idx → Elt Ideal .f32) (ix2 ⟨4000 * t.val + p.val, hr⟩ 0) := by
  obtain ⟨-, -, e0, e1, -⟩ := idx2 t
  unfold iblk2
  rw [View.read_apply]
  show V c main_v19 _ = V c main_v19 _
  refine congrArg (V c main_v19) ?_
  funext a
  apply Fin.ext
  match a with
  | ⟨0, _⟩ => show win2_1.index t (0 : Fin 2) * 4000 + 1 * p.val = 4000 * t.val + p.val; rw [e0]; omega
  | ⟨1, _⟩ => show win2_1.index t (1 : Fin 2) * 1 + 1 * (0 : Fin 1).val = (0 : Fin 1).val; rw [e1]; rfl

/-- The weights' block at every point is the whole array. -/
theorem wblk2 (c : Dev nD) (t : Fin cfg2.N) (k : Fin 128) (q : Fin 64) :
    (iblk2 V c 2 t : Vec Ideal S128x64 .f32) (ix2 k q)
      = (V c main_arg3 : S128x64.Idx → Elt Ideal .f32) (ix2 k q) := by
  obtain ⟨-, -, -, -, e0, e1, -⟩ := idx2 t
  unfold iblk2
  rw [View.read_apply]
  show V c main_arg3 _ = V c main_arg3 _
  refine congrArg (V c main_arg3) ?_
  funext a
  apply Fin.ext
  match a with
  | ⟨0, _⟩ => show win2_2.index t (0 : Fin 2) * 128 + 1 * k.val = k.val; rw [e0]; omega
  | ⟨1, _⟩ => show win2_2.index t (1 : Fin 2) * 64 + 1 * q.val = q.val; rw [e1]; omega

/-- Entry (p, q) of the output's block at point t sits at entry (4000 t + p, q) of the output array. -/
theorem oemb2 (t : Fin cfg2.N) (p : Fin 4000) (q : Fin 64) (hr : 4000 * t.val + p.val < 100000) :
    ((cfg2.win 3).blk t).view.emb (ix2 p q) = (ix2 ⟨4000 * t.val + p.val, hr⟩ q : S100000x64.Idx) := by
  obtain ⟨-, -, -, -, -, -, e0, e1⟩ := idx2 t
  funext a
  apply Fin.ext
  match a with
  | ⟨0, _⟩ => show win2_3.index t (0 : Fin 2) * 4000 + 1 * p.val = 4000 * t.val + p.val; rw [e0]; omega
  | ⟨1, _⟩ => show win2_3.index t (1 : Fin 2) * 64 + 1 * q.val = q.val; rw [e1]; omega

/-- What point t writes back is block t of the layer of the region's three arrays: a block of rows of a matrix
    product is the product of that block of rows. -/
theorem flushed2_eq (c : Dev nD) (t : Fin cfg2.N) :
    (dat2 (F := Ideal) V c).flushed 3 t
      = ((cfg2.win 3).blk t).view.read (Elt Ideal) (mm64 (F := Ideal) (V c main_v33) (V c main_v19) (V c main_arg3)) := by
  show (cfg2.win 3).cut (grid2.coords t) ((dat2 V c).after 3 t) = _
  rw [after2_3]
  unfold out2_3
  rw [View.canon_unit_zero hz]
  simp only [View.ld_unit_zero (S := S4000x128) hz, View.ld_unit_zero (S := S4000x1) hz, View.ld_unit_zero (S := S128x64) hz]
  funext j
  obtain ⟨p, q, rfl⟩ : ∃ (p : Fin 4000) (q : Fin 64), j = ix2 p q := ⟨j 0, j 1, eq_ix2 j⟩
  have ht := lt2 t
  have hr : 4000 * t.val + p.val < 100000 := by have := p.isLt; omega
  rw [View.read_apply]
  show (k2_pay1 (F := Ideal) (iblk2 V c 0 t) (iblk2 V c 1 t) (iblk2 V c 2 t)) (ix2 p q)
      = mm64 (F := Ideal) (V c main_v33) (V c main_v19) (V c main_arg3) (((cfg2.win 3).blk t).view.emb (ix2 p q))
  rw [oemb2 t p q hr]
  refine (pay2_apply _ _ _ p q).trans ?_
  refine Eq.trans ?_ (mm64_apply _ _ _ ⟨4000 * t.val + p.val, hr⟩ q).symm
  refine Finset.sum_congr rfl fun k _ => ?_
  rw [xblk2 V c t p k hr, nblk2 V c t p hr, wblk2 V c t k q]

/-- An index of the output array lies in point t's block iff each coordinate lies in the block's range on its axis. -/
theorem mem_blk2 (t : Fin cfg2.N) (i : S100000x64.Idx) :
    i ∈ ((cfg2.win 3).blk t).view.set ↔ ∀ a : Fin 2, win2_3.index t a * S4000x64.size a ≤ (i a).val
      ∧ (i a).val < win2_3.index t a * S4000x64.size a + S4000x64.size a := by
  show i ∈ ((View.whole main_v34).slice (win2_3.rect t)).set ↔ _
  rw [View.set_slice_whole, Rect.mem_set_unit]
  exact Iff.rfl

/-- Every index of the output array is written back: row r lies in the block of point r / 4000. -/
theorem cover2 (i : S100000x64.Idx) :
    ∃ t : Fin cfg2.N, (cfg2.win 3).flush t = true ∧ i ∈ ((cfg2.win 3).blk t).view.set := by
  have hN : cfg2.N = 25 := N_2
  have hi0 : (i 0).val < 100000 := (i 0).isLt
  have hi1 : (i 1).val < 64 := (i 1).isLt
  obtain ⟨t, ht⟩ : ∃ t : Fin cfg2.N, t.val = (i 0).val / 4000 := ⟨⟨(i 0).val / 4000, by rw [hN]; omega⟩, rfl⟩
  obtain ⟨-, -, -, -, -, -, e0, e1⟩ := idx2 t
  refine ⟨t, flush2_3 t, ?_⟩
  rw [mem_blk2]
  intro a
  match a with
  | ⟨0, _⟩ =>
    show win2_3.index t (0 : Fin 2) * 4000 ≤ (i 0).val ∧ (i 0).val < win2_3.index t (0 : Fin 2) * 4000 + 4000
    rw [e0]; omega
  | ⟨1, _⟩ =>
    show win2_3.index t (1 : Fin 2) * 64 ≤ (i 1).val ∧ (i 1).val < win2_3.index t (1 : Fin 2) * 64 + 64
    rw [e1]; omega

end Cert.Layers.RegionMM

namespace Cert.Layers

open Cert.Layers.RegionMM

variable (V : (c : Dev nD) → (b : Ref sig .tc) → Buf (Elt Ideal) ((c : Thread nD τ).loc b))

/-- After region 0 its output array holds the first layer's scaled product of the arrays the region found. -/
theorem final0 (c : Dev nD) :
    (dat0 (F := Ideal) V c).arrAt 3 cfg0.N = mm128 (F := Ideal) (V c main_arg0) (V c main_v19) (V c main_arg1) :=
  (dat0 (F := Ideal) V c).arrAt_eq_of_cover 3 (mm128 (F := Ideal) (V c main_arg0) (V c main_v19) (V c main_arg1))
    (fun t _ => flushed0_eq V c t) cover0

/-- After region 2 its output array holds the second layer's scaled product of the arrays the region found. -/
theorem final2 (c : Dev nD) :
    (dat2 (F := Ideal) V c).arrAt 3 cfg2.N = mm64 (F := Ideal) (V c main_v33) (V c main_v19) (V c main_arg3) :=
  (dat2 (F := Ideal) V c).arrAt_eq_of_cover 3 (mm64 (F := Ideal) (V c main_v33) (V c main_v19) (V c main_arg3))
    (fun t _ => flushed2_eq V c t) cover2

end Cert.Layers

end
-- ==== Proof.RegionPost.lean ====
/-
  The two post-processing calls, read as whole arrays.

  Each call walks its result array in 25 blocks of 4000 rows. At a point `t` it holds rows `4000 t … 4000 t + 3999`
  of the array `a` it post-processes, the same rows of the column `n` of per-row factors, and the whole bias row `b`,
  and stores `max (a · n + b, 0)` entry by entry: the entry in row `p`, column `q` of the block is
  `max (a (4000 t + p, q) · n (4000 t + p, 0) + b (0, q), 0)`. The host's layer `post…` at row `r`, column `q` is
  `max (a (r, q) · n (r, 0) + b (0, q), 0)`: the same number at `r = 4000 t + p`. So every point writes back its own
  block of the host's layer, the 25 blocks tile the 100000 rows (row `r` belongs to point `r / 4000`), and the result
  array ends holding the host's layer of the arrays the call was entered with.
-/
import proofs.«155241_j2087354105940_1_alg».proof.Proof.Gen.KernelIdeal.Frame
import proofs.«155241_j2087354105940_1_alg».proof.Proof.Layers
import Idealize.ShloMosaic.Lib.Pipeline.Value
import Idealize.ShloMosaic.PureOps.Ideal
import Idealize.ShloMosaic.PureOps.Ideal.Laws
import Idealize.ShloMosaic.Lib.ValueIdx

set_option maxRecDepth 16384

noncomputable section

open Cert.KernelIdeal Cert.KernelIdeal.Gen Cert.Layers
open Idealize.ShloMosaic Idealize.ShloMosaic.TcCoe Idealize.ShloMosaic.ValueIdx
open Idealize.SL Idealize.SL.Sem
open Idealize.ShloMosaic.Pipeline (Dat)

namespace Cert.Layers

-- the contents of the core's buffers when a call is entered, whatever they are
variable (V : (c : Dev nD) → (b : Ref sig .tc) → Buf (Elt Ideal) ((c : Thread nD τ).loc b))

namespace Post

/-- A whole-block access starts at offset zero on both axes. -/
theorem off_zero : (![0, 0] : Fin 2 → Nat) = fun _ => 0 := funext fun a => by fin_cases a <;> rfl

/-! ## The first post-processing call: 128 columns -/

/-- The call's body at one entry of its block: the row's factor times the entry, plus the bias of the
    entry's column, clamped at zero. -/
theorem pay128_apply (x0 : Vec Ideal S4000x128 .f32) (x1 : Vec Ideal S4000x1 .f32) (x2 : Vec Ideal S1x128 .f32)
    (p : Fin 4000) (q : Fin 128) :
    k1_pay1 (F := Ideal) x0 x1 x2 (ix2 p q) = max (x0 (ix2 p q) * x1 (ix2 p 0) + x2 (ix2 0 q)) 0 := by
  unfold k1_pay1
  simp only [shapeCast_self]
  rw [maximumf_apply, addf_apply, mulf_apply, broadcast_apply]
  rw [broadcastTo_apply x1 broadcasts_S4000x1_S4000x128 (ix2 p q) (ix2 p 0) (fun a => by
        match a with
        | ⟨0, _⟩ => rfl
        | ⟨1, _⟩ => rfl),
      broadcastTo_apply x2 broadcasts_S1x128_S4000x128 (ix2 p q) (ix2 0 q) (fun a => by
        match a with
        | ⟨0, _⟩ => rfl
        | ⟨1, _⟩ => rfl)]
  rw [show (Scalar.ofBits .f32 0x00000000#32 : Ideal .f32) = 0 from Ideal.ofBits_zero_f32]

/-- The host's layer at one entry: the row's factor times the entry, plus the bias of the
    entry's column, clamped at zero. -/
theorem post128_apply (a : Vec Ideal S100000x128 .f32) (n : Vec Ideal S100000x1 .f32) (b : Vec Ideal S1x128 .f32)
    (r : Fin 100000) (q : Fin 128) :
    post128 (F := Ideal) a n b (ix2 r q) = max (a (ix2 r q) * n (ix2 r 0) + b (ix2 0 q)) 0 := by
  unfold post128
  rw [maximumf_apply, addf_apply, mulf_apply]
  rw [broadcastInDim_apply _ _ n (ix2 r q) (ix2 r 0) (fun a => by
        match a with
        | ⟨0, _⟩ => rfl
        | ⟨1, _⟩ => rfl),
      broadcastInDim_apply _ _ b (ix2 r q) (ix2 0 q) (fun a => by
        match a with
        | ⟨0, _⟩ => rfl
        | ⟨1, _⟩ => rfl),
      broadcastInDim_apply _ _ (constant (F := Ideal) S_ .f32 0x00000000#32) (ix2 r q) ix0 (fun a => a.elim0)]
  rw [constant_apply, Ideal.ofBits_zero_f32]

/-- The call's grid has 25 points. -/
theorem pt1_lt (t : Fin cfg1.N) : t.val < 25 := t.isLt.trans_eq N_1

/-- The call's index maps, decided over its 25 points: the entry and factor
    windows and the output window sit at row block `t`, column block 0; the bias window at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The entry window's block at point `t` is rows `4000 t … 4000 t + 3999` of the aggregated array. -/
theorem iblk1_0_apply (c : Dev nD) (t : Fin cfg1.N) (p : Fin 4000) (q : Fin 128) (r : Fin 100000)
    (hr : r.val = 4000 * t.val + p.val) :
    (iblk1 V c 0 t : Vec Ideal S4000x128 .f32) (ix2 p q) = (V c main_v31 : Vec Ideal S100000x128 .f32) (ix2 r q) := by
  obtain ⟨e0, e1, -⟩ := idx_facts1 t
  unfold iblk1
  rw [View.read_apply]
  show V c main_v31 _ = V c main_v31 _
  congr 1
  funext a
  apply Fin.ext
  match a with
  | ⟨0, _⟩ => show win1_0.index t 0 * 4000 + 1 * p.val = r.val; rw [e0, hr]; omega
  | ⟨1, _⟩ => show win1_0.index t 1 * 128 + 1 * q.val = q.val; rw [e1]; omega

/-- The factor window's block at point `t` is rows `4000 t … 4000 t + 3999` of the column of factors. -/
theorem iblk1_1_apply (c : Dev nD) (t : Fin cfg1.N) (p : Fin 4000) (r : Fin 100000)
    (hr : r.val = 4000 * t.val + p.val) :
    (iblk1 V c 1 t : Vec Ideal S4000x1 .f32) (ix2 p 0) = (V c main_v20 : Vec Ideal S100000x1 .f32) (ix2 r 0) := by
  obtain ⟨-, -, e0, e1, -⟩ := idx_facts1 t
  unfold iblk1
  rw [View.read_apply]
  show V c main_v20 _ = V c main_v20 _
  congr 1
  funext a
  apply Fin.ext
  match a with
  | ⟨0, _⟩ => show win1_1.index t 0 * 4000 + 1 * p.val = r.val; rw [e0, hr]; omega
  | ⟨1, _⟩ => show win1_1.index t 1 * 1 + 1 * 0 = 0; rw [e1]

/-- The bias window's block is the whole bias row at every point. -/
theorem iblk1_2_apply (c : Dev nD) (t : Fin cfg1.N) (q : Fin 128) :
    (iblk1 V c 2 t : Vec Ideal S1x128 .f32) (ix2 0 q) = (V c main_v32 : Vec Ideal S1x128 .f32) (ix2 0 q) := by
  obtain ⟨-, -, -, -, e0, e1, -⟩ := idx_facts1 t
  unfold iblk1
  rw [View.read_apply]
  show V c main_v32 _ = V c main_v32 _
  congr 1
  funext a
  apply Fin.ext
  match a with
  | ⟨0, _⟩ => show win1_2.index t 0 * 1 + 1 * 0 = 0; rw [e0]
  | ⟨1, _⟩ => show win1_2.index t 1 * 128 + 1 * q.val = q.val; rw [e1]; omega

/-- What point `t` writes back is block `t` of the host's layer applied to the arrays as the call finds them. -/
theorem flushed1_eq (c : Dev nD) (t : Fin cfg1.N) :
    (dat1 (F := Ideal) V c).flushed 3 t
      = ((cfg1.win 3).blk t).view.read (Elt Ideal) (post128 (F := Ideal) (V c main_v31) (V c main_v20) (V c main_v32)) := by
  show (cfg1.win 3).cut (grid1.coords t) ((dat1 V c).after 3 t) = _
  rw [after1_3]
  unfold out1_3
  rw [View.canon_unit_zero off_zero]
  simp only [View.ld_unit_zero (S := S4000x128) off_zero, View.ld_unit_zero (S := S4000x1) off_zero,
    View.ld_unit_zero (S := S1x128) off_zero]
  have ht := pt1_lt t
  obtain ⟨-, -, -, -, -, -, e0, e1⟩ := idx_facts1 t
  funext j
  obtain ⟨p, q, rfl⟩ : ∃ (p : Fin 4000) (q : Fin 128), j = ix2 p q := ⟨j 0, j 1, eq_ix2 j⟩
  have hr : 4000 * t.val + p.val < 100000 := by have := p.isLt; omega
  rw [View.read_apply]
  show k1_pay1 (F := Ideal) (iblk1 V c 0 t) (iblk1 V c 1 t) (iblk1 V c 2 t) (ix2 p q) = post128 (F := Ideal) (V c main_v31) (V c main_v20) (V c main_v32) _
  have hemb : ((cfg1.win 3).blk t).view.emb (ix2 p q) = ix2 (⟨4000 * t.val + p.val, hr⟩ : Fin 100000) q := by
    funext a
    apply Fin.ext
    match a with
    | ⟨0, _⟩ => show win1_3.index t 0 * 4000 + 1 * p.val = 4000 * t.val + p.val; rw [e0]; omega
    | ⟨1, _⟩ => show win1_3.index t 1 * 128 + 1 * q.val = q.val; rw [e1]; omega
  rw [hemb]
  refine (pay128_apply _ _ _ p q).trans ?_
  rw [post128_apply, iblk1_0_apply V c t p q ⟨4000 * t.val + p.val, hr⟩ rfl,
    iblk1_1_apply V c t p ⟨4000 * t.val + p.val, hr⟩ rfl, iblk1_2_apply V c t q]

/-- An index of the result array lies in point `t`'s block iff each coordinate lies in the block's range on its axis. -/
theorem mem_blk1 (t : Fin cfg1.N) (i : S100000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_v33).slice (win1_3.rect t)).set ↔ _
  rw [View.set_slice_whole, Rect.mem_set_unit]
  exact Iff.rfl

/-- Every row `r` of the result array is written back by point `r / 4000`: the 25 blocks of 4000 rows tile its
    100000 rows. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 25 := N_1
  have hlt : (i 0).val / 4000 < cfg1.N := by rw [hN]; omega
  obtain ⟨-, -, -, -, -, -, e0, e1⟩ := idx_facts1 ⟨(i 0).val / 4000, hlt⟩
  refine ⟨⟨(i 0).val / 4000, hlt⟩, flush1_3 _, ?_⟩
  rw [mem_blk1]
  intro a
  match a with
  | ⟨0, _⟩ =>
    show win1_3.index ⟨(i 0).val / 4000, hlt⟩ 0 * 4000 ≤ (i 0).val
      ∧ (i 0).val < win1_3.index ⟨(i 0).val / 4000, hlt⟩ 0 * 4000 + 4000
    rw [e0]
    show (i 0).val / 4000 * 4000 ≤ (i 0).val ∧ (i 0).val < (i 0).val / 4000 * 4000 + 4000
    omega
  | ⟨1, _⟩ =>
    show win1_3.index ⟨(i 0).val / 4000, hlt⟩ 1 * 128 ≤ (i 1).val
      ∧ (i 1).val < win1_3.index ⟨(i 0).val / 4000, hlt⟩ 1 * 128 + 128
    rw [e1]
    omega

/-! ## The second post-processing call: 64 columns -/

/-- The call's body at one entry of its block: the row's factor times the entry, plus the bias of the
    entry's column, clamped at zero. -/
theorem pay64_apply (x0 : Vec Ideal S4000x64 .f32) (x1 : Vec Ideal S4000x1 .f32) (x2 : Vec Ideal S1x64 .f32)
    (p : Fin 4000) (q : Fin 64) :
    k3_pay1 (F := Ideal) x0 x1 x2 (ix2 p q) = max (x0 (ix2 p q) * x1 (ix2 p 0) + x2 (ix2 0 q)) 0 := by
  unfold k3_pay1
  simp only [shapeCast_self]
  rw [maximumf_apply, addf_apply, mulf_apply, broadcast_apply]
  rw [broadcastTo_apply x1 broadcasts_S4000x1_S4000x64 (ix2 p q) (ix2 p 0) (fun a => by
        match a with
        | ⟨0, _⟩ => rfl
        | ⟨1, _⟩ => rfl),
      broadcastTo_apply x2 broadcasts_S1x64_S4000x64 (ix2 p q) (ix2 0 q) (fun a => by
        match a with
        | ⟨0, _⟩ => rfl
        | ⟨1, _⟩ => rfl)]
  rw [show (Scalar.ofBits .f32 0x00000000#32 : Ideal .f32) = 0 from Ideal.ofBits_zero_f32]

/-- The host's layer at one entry: the row's factor times the entry, plus the bias of the
    entry's column, clamped at zero. -/
theorem post64_apply (a : Vec Ideal S100000x64 .f32) (n : Vec Ideal S100000x1 .f32) (b : Vec Ideal S1x64 .f32)
    (r : Fin 100000) (q : Fin 64) :
    post64 (F := Ideal) a n b (ix2 r q) = max (a (ix2 r q) * n (ix2 r 0) + b (ix2 0 q)) 0 := by
  unfold post64
  rw [maximumf_apply, addf_apply, mulf_apply]
  rw [broadcastInDim_apply _ _ n (ix2 r q) (ix2 r 0) (fun a => by
        match a with
        | ⟨0, _⟩ => rfl
        | ⟨1, _⟩ => rfl),
      broadcastInDim_apply _ _ b (ix2 r q) (ix2 0 q) (fun a => by
        match a with
        | ⟨0, _⟩ => rfl
        | ⟨1, _⟩ => rfl),
      broadcastInDim_apply _ _ (constant (F := Ideal) S_ .f32 0x00000000#32) (ix2 r q) ix0 (fun a => a.elim0)]
  rw [constant_apply, Ideal.ofBits_zero_f32]

/-- The call's grid has 25 points. -/
theorem pt3_lt (t : Fin cfg3.N) : t.val < 25 := t.isLt.trans_eq N_3

/-- The call's index maps, decided over its 25 points: the entry and factor
    windows and the output window sit at row block `t`, column block 0; the bias window at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The entry window's block at point `t` is rows `4000 t … 4000 t + 3999` of the aggregated array. -/
theorem iblk3_0_apply (c : Dev nD) (t : Fin cfg3.N) (p : Fin 4000) (q : Fin 64) (r : Fin 100000)
    (hr : r.val = 4000 * t.val + p.val) :
    (iblk3 V c 0 t : Vec Ideal S4000x64 .f32) (ix2 p q) = (V c main_v44 : Vec Ideal S100000x64 .f32) (ix2 r q) := by
  obtain ⟨e0, e1, -⟩ := idx_facts3 t
  unfold iblk3
  rw [View.read_apply]
  show V c main_v44 _ = V c main_v44 _
  congr 1
  funext a
  apply Fin.ext
  match a with
  | ⟨0, _⟩ => show win3_0.index t 0 * 4000 + 1 * p.val = r.val; rw [e0, hr]; omega
  | ⟨1, _⟩ => show win3_0.index t 1 * 64 + 1 * q.val = q.val; rw [e1]; omega

/-- The factor window's block at point `t` is rows `4000 t … 4000 t + 3999` of the column of factors. -/
theorem iblk3_1_apply (c : Dev nD) (t : Fin cfg3.N) (p : Fin 4000) (r : Fin 100000)
    (hr : r.val = 4000 * t.val + p.val) :
    (iblk3 V c 1 t : Vec Ideal S4000x1 .f32) (ix2 p 0) = (V c main_v20 : Vec Ideal S100000x1 .f32) (ix2 r 0) := by
  obtain ⟨-, -, e0, e1, -⟩ := idx_facts3 t
  unfold iblk3
  rw [View.read_apply]
  show V c main_v20 _ = V c main_v20 _
  congr 1
  funext a
  apply Fin.ext
  match a with
  | ⟨0, _⟩ => show win3_1.index t 0 * 4000 + 1 * p.val = r.val; rw [e0, hr]; omega
  | ⟨1, _⟩ => show win3_1.index t 1 * 1 + 1 * 0 = 0; rw [e1]

/-- The bias window's block is the whole bias row at every point. -/
theorem iblk3_2_apply (c : Dev nD) (t : Fin cfg3.N) (q : Fin 64) :
    (iblk3 V c 2 t : Vec Ideal S1x64 .f32) (ix2 0 q) = (V c main_v45 : Vec Ideal S1x64 .f32) (ix2 0 q) := by
  obtain ⟨-, -, -, -, e0, e1, -⟩ := idx_facts3 t
  unfold iblk3
  rw [View.read_apply]
  show V c main_v45 _ = V c main_v45 _
  congr 1
  funext a
  apply Fin.ext
  match a with
  | ⟨0, _⟩ => show win3_2.index t 0 * 1 + 1 * 0 = 0; rw [e0]
  | ⟨1, _⟩ => show win3_2.index t 1 * 64 + 1 * q.val = q.val; rw [e1]; omega

/-- What point `t` writes back is block `t` of the host's layer applied to the arrays as the call finds them. -/
theorem flushed3_eq (c : Dev nD) (t : Fin cfg3.N) :
    (dat3 (F := Ideal) V c).flushed 3 t
      = ((cfg3.win 3).blk t).view.read (Elt Ideal) (post64 (F := Ideal) (V c main_v44) (V c main_v20) (V c main_v45)) := by
  show (cfg3.win 3).cut (grid3.coords t) ((dat3 V c).after 3 t) = _
  rw [after3_3]
  unfold out3_3
  rw [View.canon_unit_zero off_zero]
  simp only [View.ld_unit_zero (S := S4000x64) off_zero, View.ld_unit_zero (S := S4000x1) off_zero,
    View.ld_unit_zero (S := S1x64) off_zero]
  have ht := pt3_lt t
  obtain ⟨-, -, -, -, -, -, e0, e1⟩ := idx_facts3 t
  funext j
  obtain ⟨p, q, rfl⟩ : ∃ (p : Fin 4000) (q : Fin 64), j = ix2 p q := ⟨j 0, j 1, eq_ix2 j⟩
  have hr : 4000 * t.val + p.val < 100000 := by have := p.isLt; omega
  rw [View.read_apply]
  show k3_pay1 (F := Ideal) (iblk3 V c 0 t) (iblk3 V c 1 t) (iblk3 V c 2 t) (ix2 p q) = post64 (F := Ideal) (V c main_v44) (V c main_v20) (V c main_v45) _
  have hemb : ((cfg3.win 3).blk t).view.emb (ix2 p q) = ix2 (⟨4000 * t.val + p.val, hr⟩ : Fin 100000) q := by
    funext a
    apply Fin.ext
    match a with
    | ⟨0, _⟩ => show win3_3.index t 0 * 4000 + 1 * p.val = 4000 * t.val + p.val; rw [e0]; omega
    | ⟨1, _⟩ => show win3_3.index t 1 * 64 + 1 * q.val = q.val; rw [e1]; omega
  rw [hemb]
  refine (pay64_apply _ _ _ p q).trans ?_
  rw [post64_apply, iblk3_0_apply V c t p q ⟨4000 * t.val + p.val, hr⟩ rfl,
    iblk3_1_apply V c t p ⟨4000 * t.val + p.val, hr⟩ rfl, iblk3_2_apply V c t q]

/-- An index of the result array lies in point `t`'s block iff each coordinate lies in the block's range on its axis. -/
theorem mem_blk3 (t : Fin cfg3.N) (i : S100000x64.Idx) :
    i ∈ ((cfg3.win 3).blk t).view.set ↔ ∀ a : Fin 2, win3_3.index t a * S4000x64.size a ≤ (i a).val
      ∧ (i a).val < win3_3.index t a * S4000x64.size a + S4000x64.size a := by
  show i ∈ ((View.whole main_v46).slice (win3_3.rect t)).set ↔ _
  rw [View.set_slice_whole, Rect.mem_set_unit]
  exact Iff.rfl

/-- Every row `r` of the result array is written back by point `r / 4000`: the 25 blocks of 4000 rows tile its
    100000 rows. -/
theorem cover3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 25 := N_3
  have hlt : (i 0).val / 4000 < cfg3.N := by rw [hN]; omega
  obtain ⟨-, -, -, -, -, -, e0, e1⟩ := idx_facts3 ⟨(i 0).val / 4000, hlt⟩
  refine ⟨⟨(i 0).val / 4000, hlt⟩, flush3_3 _, ?_⟩
  rw [mem_blk3]
  intro a
  match a with
  | ⟨0, _⟩ =>
    show win3_3.index ⟨(i 0).val / 4000, hlt⟩ 0 * 4000 ≤ (i 0).val
      ∧ (i 0).val < win3_3.index ⟨(i 0).val / 4000, hlt⟩ 0 * 4000 + 4000
    rw [e0]
    show (i 0).val / 4000 * 4000 ≤ (i 0).val ∧ (i 0).val < (i 0).val / 4000 * 4000 + 4000
    omega
  | ⟨1, _⟩ =>
    show win3_3.index ⟨(i 0).val / 4000, hlt⟩ 1 * 64 ≤ (i 1).val
      ∧ (i 1).val < win3_3.index ⟨(i 0).val / 4000, hlt⟩ 1 * 64 + 64
    rw [e1]
    omega

end Post

open Post

/-! ## The two result arrays -/

/-- The first post-processing call leaves its result array holding the host's layer of the arrays it was entered
    with: each point writes its block of that array, and the blocks tile it. -/
theorem final1 (c : Dev nD) :
    (dat1 (F := Ideal) V c).arrAt 3 cfg1.N = post128 (F := Ideal) (V c main_v31) (V c main_v20) (V c main_v32) :=
  (dat1 (F := Ideal) V c).arrAt_eq_of_cover 3 (post128 (F := Ideal) (V c main_v31) (V c main_v20) (V c main_v32))
    (fun t _ => flushed1_eq V c t) cover1

/-- The second post-processing call leaves its result array holding the host's layer of the arrays it was entered
    with: each point writes its block of that array, and the blocks tile it. -/
theorem final3 (c : Dev nD) :
    (dat3 (F := Ideal) V c).arrAt 3 cfg3.N = post64 (F := Ideal) (V c main_v44) (V c main_v20) (V c main_v45) :=
  (dat3 (F := Ideal) V c).arrAt_eq_of_cover 3 (post64 (F := Ideal) (V c main_v44) (V c main_v20) (V c main_v45))
    (fun t _ => flushed3_eq V c t) cover3

end Cert.Layers

end
-- ==== Proof.Algebraic.lean ====
/-
  The two programs compute the same two layers: the kernel program's result array, read off its run, and the
  reference's composed term are one function of the arguments, so from memories that agree on the arguments they end
  with equal results.
-/
import proofs.«155241_j2087354105940_1_alg».proof.Defs
import proofs.«155241_j2087354105940_1_alg».proof.Proof.Gen.Pre_finite_inputs
import proofs.«155241_j2087354105940_1_alg».proof.Proof.KernelRun
import proofs.«155241_j2087354105940_1_alg».proof.Proof.KernelValue
import proofs.«155241_j2087354105940_1_alg».proof.Proof.RefValue
import proofs.«155241_j2087354105940_1_alg».proof.Proof.RegionMM
import proofs.«155241_j2087354105940_1_alg».proof.Proof.RegionPost

set_option maxRecDepth 16384

noncomputable section

namespace Cert.Layers

open Idealize.ShloMosaic Idealize.ShloMosaic.TcCoe Idealize.SL.Sem

/-- The idealized kernel program and the idealized reference, run from memories agreeing on the arguments, both end
    with the two layers of those arguments in their result arrays, and with the arguments unchanged. -/
theorem algebraic : Cert.algebraic_KernelIdeal_ReferenceIdeal := by
  intro m ρ m' ρ' _ hagree
  refine ⟨fun c => gcn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (kernel_result m ρ final0 final1 final2 final3 c), (h c).2⟩)
      (Cert.KernelIdeal.RunResult.run_result (F := Ideal) m ρ)
  · refine (θ_run Cert.ReferenceIdeal.defs _ _).mono (fun r h c => ⟨(h c).1.trans ?_, (h c).2⟩)
      (Cert.ReferenceIdeal.RunP.run (F := Ideal) m' ρ')
    rw [ref_result]
    obtain ⟨h0, h1, h2, h3, h4, h5, h6⟩ := hagree c
    rw [h0, h1, h2, h3, h4, h5, h6]

end Cert.Layers

end
-- ==== Proof.lean ====
/-
  The certificate of a two-layer graph convolution: a program of four kernel regions (two row-scaled products with the
  weights, two row-scaled bias-and-clamp steps) among host stretches that compute each node's degree factors and carry
  every edge's source row to its destination, against the plain jnp reference.

  The three frames: the two kernel programs' by their frame certificates, the reference's by its run read back with the
  result dropped. The ideal pass rewrote nothing, so the idealization claim is trivial. Over the extended reals both
  idealized programs end with the same two layers of the arguments (`Cert.Layers.algebraic`): a change of float format is
  the identity there, a block of rows of a matrix product is the product of that block of rows, a reshape of a vector to
  a column or a row is its broadcast to it, and the reference's second computation of the degree factors repeats the
  first on the same index lists.
-/
import proofs.«155241_j2087354105940_1_alg».proof.Defs
import proofs.«155241_j2087354105940_1_alg».proof.Proof.Gen.Kernel
import proofs.«155241_j2087354105940_1_alg».proof.Proof.Gen.Kernel.Skeleton
import proofs.«155241_j2087354105940_1_alg».proof.Proof.Gen.Kernel.Launch
import proofs.«155241_j2087354105940_1_alg».proof.Proof.Gen.Kernel.Points
import proofs.«155241_j2087354105940_1_alg».proof.Proof.Gen.Kernel.Frame
import proofs.«155241_j2087354105940_1_alg».proof.Proof.Gen.KernelIdeal
import proofs.«155241_j2087354105940_1_alg».proof.Proof.Gen.KernelIdeal.Skeleton
import proofs.«155241_j2087354105940_1_alg».proof.Proof.Gen.KernelIdeal.Launch
import proofs.«155241_j2087354105940_1_alg».proof.Proof.Gen.KernelIdeal.Points
import proofs.«155241_j2087354105940_1_alg».proof.Proof.Gen.KernelIdeal.Frame
import proofs.«155241_j2087354105940_1_alg».proof.Proof.Gen.ReferenceIdeal
import proofs.«155241_j2087354105940_1_alg».proof.Proof.Gen.Pre_finite_inputs
import proofs.«155241_j2087354105940_1_alg».proof.Proof.RefRun
import proofs.«155241_j2087354105940_1_alg».proof.Proof.Algebraic
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Layers.algebraic⟩

end Cert.Proof

end
